-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S2x16x128x2048 : Shape := ⟨4, ![2, 16, 128, 2048]⟩
abbrev S1x4x1x4x1x1x1 : Shape := ⟨7, ![1, 4, 1, 4, 1, 1, 1]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S2x16x128x2048 : S_.BroadcastsInDim S2x16x128x2048 (![] : Fin 0 → Fin S2x16x128x2048.rank)
  reducesTo_S2x16x128x2048_S_d0_1_2_3 : S2x16x128x2048.ReducesTo [0, 1, 2, 3] S_
  bcast_S_S1x4x1x4x1x1x1 : S_.BroadcastsInDim S1x4x1x4x1x1x1 (![] : Fin 0 → Fin S1x4x1x4x1x1x1.rank)
  reducesTo_S1x4x1x4x1x1x1_S_d0_1_2_3_4_5_6 : S1x4x1x4x1x1x1.ReducesTo [0, 1, 2, 3, 4, 5, 6] S_

variable [Facts]

def fn_part1 {F : FTy → Type} [FloatOps F] (main_v13 : IVec S_ 1) (main_v16 : IVec S1x4x1x4x1x1x1 1) : IVec S_ 1 :=
  let main_c_5 : IVec S_ 1 := constantI S_ 1 1#1
  let main_v17 : IVec S_ 1 := (fun x v => Host.reduce IntOp.andi x v reducesTo_S1x4x1x4x1x1x1_S_d0_1_2_3_4_5_6 h_S_) main_v16 main_c_5
  let main_v18 : IVec S_ 1 := andi main_v13 main_v17
  main_v18

def fn {F : FTy → Type} [FloatOps F] (main_arg0 : FVec F S2x16x2048x128 .f32) (main_arg1 : FVec F S2x16x128x2048 .f32) (main_arg2 : FVec F S1x4x1x4x1x1x1 .f32) (main_arg3 : FVec F S1x4x1x4x1x1x1 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x128x2048 .f32 := Host.absf main_arg1
  let main_cst_0 : FVec F S_ .f32 := constant S_ .f32 0x7F800000#32
  let main_v5 : FVec F S2x16x128x2048 .f32 := broadcastInDim S2x16x128x2048 ![] bcast_S_S2x16x128x2048 main_cst_0
  let main_v6 : IVec S2x16x128x2048 1 := cmpf .olt main_v4 main_v5
  let main_c_1 : IVec S_ 1 := constantI S_ 1 1#1
  let main_v7 : IVec S_ 1 := (fun x v => Host.reduce IntOp.andi x v reducesTo_S2x16x128x2048_S_d0_1_2_3 h_S_) main_v6 main_c_1
  let main_v8 : IVec S_ 1 := andi main_v3 main_v7
  let main_v9 : FVec F S1x4x1x4x1x1x1 .f32 := Host.absf main_arg2
  let main_cst_2 : FVec F S_ .f32 := constant S_ .f32 0x7F800000#32
  let main_v10 : FVec F S1x4x1x4x1x1x1 .f32 := broadcastInDim S1x4x1x4x1x1x1 ![] bcast_S_S1x4x1x4x1x1x1 main_cst_2
  let main_v11 : IVec S1x4x1x4x1x1x1 1 := cmpf .olt main_v9 main_v10
  let main_c_3 : IVec S_ 1 := constantI S_ 1 1#1
  let main_v12 : IVec S_ 1 := (fun x v => Host.reduce IntOp.andi x v reducesTo_S1x4x1x4x1x1x1_S_d0_1_2_3_4_5_6 h_S_) main_v11 main_c_3
  let main_v13 : IVec S_ 1 := andi main_v8 main_v12
  let main_v14 : FVec F S1x4x1x4x1x1x1 .f32 := Host.absf main_arg3
  let main_cst_4 : FVec F S_ .f32 := constant S_ .f32 0x7F800000#32
  let main_v15 : FVec F S1x4x1x4x1x1x1 .f32 := broadcastInDim S1x4x1x4x1x1x1 ![] bcast_S_S1x4x1x4x1x1x1 main_cst_4
  let main_v16 : IVec S1x4x1x4x1x1x1 1 := cmpf .olt main_v14 main_v15
  fn_part1 (F := F) main_v13 main_v16
-- ==== Kernel.lean ====
abbrev S2x16x2048x128 : Shape := ⟨4, ![2, 16, 2048, 128]⟩
abbrev S2x16x128x2048 : Shape := ⟨4, ![2, 16, 128, 2048]⟩
abbrev S1x4x1x4x1x1x1 : Shape := ⟨7, ![1, 4, 1, 4, 1, 1, 1]⟩
abbrev S4x4 : Shape := ⟨2, ![4, 4]⟩
abbrev S16 : Shape := ⟨1, ![16]⟩
abbrev S_ : Shape := ⟨0, ![]⟩
abbrev S16x1 : Shape := ⟨2, ![16, 1]⟩
abbrev S16x4 : Shape := ⟨2, ![16, 4]⟩
abbrev S1x16x4 : Shape := ⟨3, ![1, 16, 4]⟩
abbrev S2x16x4 : Shape := ⟨3, ![2, 16, 4]⟩
abbrev S2x16x4x1x1 : Shape := ⟨5, ![2, 16, 4, 1, 1]⟩
abbrev S16x4x32 : Shape := ⟨3, ![16, 4, 32]⟩
abbrev S16x128 : Shape := ⟨2, ![16, 128]⟩
abbrev S1x16x128 : Shape := ⟨3, ![1, 16, 128]⟩
abbrev S2x16x128 : Shape := ⟨3, ![2, 16, 128]⟩
abbrev S2x16x128x1 : Shape := ⟨4, ![2, 16, 128, 1]⟩
abbrev S2x16x2048x2048 : Shape := ⟨4, ![2, 16, 2048, 2048]⟩
abbrev S1x1x1x1x1 : Shape := ⟨5, ![1, 1, 1, 1, 1]⟩
abbrev S1x1x128x1 : Shape := ⟨4, ![1, 1, 128, 1]⟩
abbrev S1x1x512x128 : Shape := ⟨4, ![1, 1, 512, 128]⟩
abbrev S1x1x128x2048 : Shape := ⟨4, ![1, 1, 128, 2048]⟩
abbrev S1x1x512x2048 : Shape := ⟨4, ![1, 1, 512, 2048]⟩
abbrev S1x1 : Shape := ⟨2, ![1, 1]⟩
abbrev S128x1 : Shape := ⟨2, ![128, 1]⟩
abbrev S512x128 : Shape := ⟨2, ![512, 128]⟩
abbrev S128x2048 : Shape := ⟨2, ![128, 2048]⟩
abbrev S512x2048 : Shape := ⟨2, ![512, 2048]⟩

abbrev nBuf : Space → Nat
  | .hbm => 52
  | .vmem => 10
  | .smem => 0
  | _ => 0

abbrev bufTy : (tb : Table) → Fin (tcTables nBuf tb) → BufTy
  | .hbm, ⟨0, _⟩ => ⟨S2x16x2048x128, .f32⟩
  | .hbm, ⟨1, _⟩ => ⟨S2x16x128x2048, .f32⟩
  | .hbm, ⟨2, _⟩ => ⟨S1x4x1x4x1x1x1, .f32⟩
  | .hbm, ⟨3, _⟩ => ⟨S1x4x1x4x1x1x1, .f32⟩
  | .hbm, ⟨4, _⟩ => ⟨S4x4, .f32⟩
  | .hbm, ⟨5, _⟩ => ⟨S4x4, .f32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S16x4, .f32⟩
  | .hbm, ⟨34, _⟩ => ⟨S1x16x4, .f32⟩
  | .hbm, ⟨35, _⟩ => ⟨S2x16x4, .f32⟩
  | .hbm, ⟨36, _⟩ => ⟨S2x16x4x1x1, .f32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S16x1, .i32⟩
  | .hbm, ⟨45, _⟩ => ⟨S16x4, .f32⟩
  | .hbm, ⟨46, _⟩ => ⟨S16x4x32, .f32⟩
  | .hbm, ⟨47, _⟩ => ⟨S16x128, .f32⟩
  | .hbm, ⟨48, _⟩ => ⟨S1x16x128, .f32⟩
  | .hbm, ⟨49, _⟩ => ⟨S2x16x128, .f32⟩
  | .hbm, ⟨50, _⟩ => ⟨S2x16x128x1, .f32⟩
  | .hbm, ⟨51, _⟩ => ⟨S2x16x2048x2048, .f32⟩
  | .local _ .vmem, ⟨0, _⟩ => ⟨S1x1x1x1x1, .f32⟩
  | .local _ .vmem, ⟨1, _⟩ => ⟨S1x1x1x1x1, .f32⟩
  | .local _ .vmem, ⟨2, _⟩ => ⟨S1x1x128x1, .f32⟩
  | .local _ .vmem, ⟨3, _⟩ => ⟨S1x1x128x1, .f32⟩
  | .local _ .vmem, ⟨4, _⟩ => ⟨S1x1x512x128, .f32⟩
  | .local _ .vmem, ⟨5, _⟩ => ⟨S1x1x512x128, .f32⟩
  | .local _ .vmem, ⟨6, _⟩ => ⟨S1x1x128x2048, .f32⟩
  | .local _ .vmem, ⟨7, _⟩ => ⟨S1x1x128x2048, .f32⟩
  | .local _ .vmem, ⟨8, _⟩ => ⟨S1x1x512x2048, .f32⟩
  | .local _ .vmem, ⟨9, _⟩ => ⟨S1x1x512x2048, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_c_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S1x4x1x4x1x1x1_S4x4 : S1x4x1x4x1x1x1.ShapeCasts S4x4
  bcast_S_S16 : S_.BroadcastsInDim S16 (![] : Fin 0 → Fin S16.rank)
  bcast_S16_S16x1_0 : S16.BroadcastsInDim S16x1 (![0] : Fin 1 → Fin S16x1.rank)
  bcast_S16x4_S1x16x4_1_2 : S16x4.BroadcastsInDim S1x16x4 (![1, 2] : Fin 2 → Fin S1x16x4.rank)
  bcast_S1x16x4_S2x16x4_0_1_2 : S1x16x4.BroadcastsInDim S2x16x4 (![0, 1, 2] : Fin 3 → Fin S2x16x4.rank)
  shapeCasts_S2x16x4_S2x16x4x1x1 : S2x16x4.ShapeCasts S2x16x4x1x1
  bcast_S16x4_S16x4x32_0_1 : S16x4.BroadcastsInDim S16x4x32 (![0, 1] : Fin 2 → Fin S16x4x32.rank)
  shapeCasts_S16x4x32_S16x128 : S16x4x32.ShapeCasts S16x128
  bcast_S16x128_S1x16x128_1_2 : S16x128.BroadcastsInDim S1x16x128 (![1, 2] : Fin 2 → Fin S1x16x128.rank)
  bcast_S1x16x128_S2x16x128_0_1_2 : S1x16x128.BroadcastsInDim S2x16x128 (![0, 1, 2] : Fin 3 → Fin S2x16x128.rank)
  shapeCasts_S2x16x128_S2x16x128x1 : S2x16x128.ShapeCasts S2x16x128x1
  inb_S1x1x1x1x1_S1x1x1x1x1_0_0_0_0_0 : ∀ a, (![0, 0, 0, 0, 0] : Fin 5 → Nat) a + S1x1x1x1x1.size a ≤ S1x1x1x1x1.size a
  h_S1x1x1x1x1 : 0 < S1x1x1x1x1.numel
  shapeCasts_S1x1x1x1x1_S1x1 : S1x1x1x1x1.ShapeCasts S1x1
  inb_S1x1x128x1_S1x1x128x1_0_0_0_0 : ∀ a, (![0, 0, 0, 0] : Fin 4 → Nat) a + S1x1x128x1.size a ≤ S1x1x128x1.size a
  h_S1x1x128x1 : 0 < S1x1x128x1.numel
  shapeCasts_S1x1x128x1_S128x1 : S1x1x128x1.ShapeCasts S128x1
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  inb_S1x1x128x2048_S1x1x128x2048_0_0_0_0 : ∀ a, (![0, 0, 0, 0] : Fin 4 → Nat) a + S1x1x128x2048.size a ≤ S1x1x128x2048.size a
  h_S1x1x128x2048 : 0 < S1x1x128x2048.numel
  shapeCasts_S1x1x128x2048_S128x2048 : S1x1x128x2048.ShapeCasts S128x2048
  broadcasts_S1x1_S512x128 : S1x1.Broadcasts S512x128
  broadcasts_S128x1_S128x2048 : S128x1.Broadcasts S128x2048
  bitsLt_bf16_f32 : FTy.bits .bf16 < FTy.bits .f32
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  gather_S4x4_S16x1_S16x4_1_0_n_n_0_1_14_wf : GatherDims.WF S4x4 S16x1 S16x4 [1] [0] [] [0] [] 1 ![1, 4]
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x1x1.size a ≤ S2x16x4x1x1.size a
  hwx0_0 : ∀ i : grid0.Coords, EltTy.bits .f32 = 32 ∨ (Rect.block (s := S2x16x4x1x1) S1x1x1x1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x1.size a ≤ S2x16x128x1.size a
  hwx0_1 : ∀ i : grid0.Coords, EltTy.bits .f32 = 32 ∨ (Rect.block (s := S2x16x128x1) S1x1x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x128.size a ≤ S2x16x2048x128.size a
  hwx0_2 : ∀ i : grid0.Coords, EltTy.bits .f32 = 32 ∨ (Rect.block (s := S2x16x2048x128) S1x1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x2048.size a ≤ S2x16x128x2048.size a
  hwx0_3 : ∀ i : grid0.Coords, EltTy.bits .f32 = 32 ∨ (Rect.block (s := S2x16x128x2048) S1x1x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)

variable [Facts₀]

def gather_S4x4_S16x1_S16x4_1_0_n_n_0_1_14 : GatherDims S4x4 S16x1 S16x4 where
  offsetDims := [1]
  collapsedSliceDims := [0]
  operandBatchingDims := []
  startIndicesBatchingDims := []
  startIndexMap := [0]
  indexVectorDim := 1
  sliceSizes := ![1, 4]
  wf := gather_S4x4_S16x1_S16x4_1_0_n_n_0_1_14_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v13) S1x1x1x1x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x16x128x2048 : Shape := ⟨4, ![2, 16, 128, 2048]⟩
abbrev S1x4x1x4x1x1x1 : Shape := ⟨7, ![1, 4, 1, 4, 1, 1, 1]⟩
abbrev S2x4x4x4x512x1x128 : Shape := ⟨7, ![2, 4, 4, 4, 512, 1, 128]⟩
abbrev S_ : Shape := ⟨0, ![]⟩
abbrev S2x4x4x4x32x1x2048 : Shape := ⟨7, ![2, 4, 4, 4, 32, 1, 2048]⟩
abbrev S2x16x2048x2048 : Shape := ⟨4, ![2, 16, 2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x128x2048, .f32⟩
  | .hbm, ⟨2, _⟩ => ⟨S1x4x1x4x1x1x1, .f32⟩
  | .hbm, ⟨3, _⟩ => ⟨S1x4x1x4x1x1x1, .f32⟩
  | .hbm, ⟨4, _⟩ => ⟨S2x4x4x4x512x1x128, .f32⟩
  | .hbm, ⟨5, _⟩ => ⟨S2x4x4x4x512x1x128, .f32⟩
  | .hbm, ⟨6, _⟩ => ⟨S2x4x4x4x512x1x128, .f32⟩
  | .hbm, ⟨7, _⟩ => ⟨S2x4x4x4x512x1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x4x4x4x512x1x128, .f32⟩
  | .hbm, ⟨12, _⟩ => ⟨S2x4x4x4x512x1x128, .f32⟩
  | .hbm, ⟨13, _⟩ => ⟨S_, .f32⟩
  | .hbm, ⟨14, _⟩ => ⟨S2x4x4x4x512x1x128, .f32⟩
  | .hbm, ⟨15, _⟩ => ⟨S2x4x4x4x512x1x128, .f32⟩
  | .hbm, ⟨16, _⟩ => ⟨S2x4x4x4x512x1x128, .f32⟩
  | .hbm, ⟨17, _⟩ => ⟨S2x4x4x4x512x1x128, .f32⟩
  | .hbm, ⟨18, _⟩ => ⟨S2x16x2048x128, .f32⟩
  | .hbm, ⟨19, _⟩ => ⟨S2x4x4x4x32x1x2048, .f32⟩
  | .hbm, ⟨20, _⟩ => ⟨S2x4x4x4x32x1x2048, .f32⟩
  | .hbm, ⟨21, _⟩ => ⟨S2x4x4x4x32x1x2048, .f32⟩
  | .hbm, ⟨22, _⟩ => ⟨S2x4x4x4x32x1x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x4x4x4x32x1x2048, .f32⟩
  | .hbm, ⟨27, _⟩ => ⟨S2x4x4x4x32x1x2048, .f32⟩
  | .hbm, ⟨28, _⟩ => ⟨S_, .f32⟩
  | .hbm, ⟨29, _⟩ => ⟨S2x4x4x4x32x1x2048, .f32⟩
  | .hbm, ⟨30, _⟩ => ⟨S2x4x4x4x32x1x2048, .f32⟩
  | .hbm, ⟨31, _⟩ => ⟨S2x4x4x4x32x1x2048, .f32⟩
  | .hbm, ⟨32, _⟩ => ⟨S2x4x4x4x32x1x2048, .f32⟩
  | .hbm, ⟨33, _⟩ => ⟨S2x16x128x2048, .f32⟩
  | .hbm, ⟨34, _⟩ => ⟨S2x16x2048x2048, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_cst_2 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]

class Facts₀ : Prop where
  shapeCasts_S2x16x2048x128_S2x4x4x4x512x1x128 : S2x16x2048x128.ShapeCasts S2x4x4x4x512x1x128
  bcast_S1x4x1x4x1x1x1_S2x4x4x4x512x1x128_0_1_2_3_4_5_6 : S1x4x1x4x1x1x1.BroadcastsInDim S2x4x4x4x512x1x128 (![0, 1, 2, 3, 4, 5, 6] : Fin 7 → Fin S2x4x4x4x512x1x128.rank)
  bcast_S_S2x4x4x4x512x1x128 : S_.BroadcastsInDim S2x4x4x4x512x1x128 (![] : Fin 0 → Fin S2x4x4x4x512x1x128.rank)
  shapeCasts_S2x4x4x4x512x1x128_S2x16x2048x128 : S2x4x4x4x512x1x128.ShapeCasts S2x16x2048x128
  shapeCasts_S2x16x128x2048_S2x4x4x4x32x1x2048 : S2x16x128x2048.ShapeCasts S2x4x4x4x32x1x2048
  bcast_S1x4x1x4x1x1x1_S2x4x4x4x32x1x2048_0_1_2_3_4_5_6 : S1x4x1x4x1x1x1.BroadcastsInDim S2x4x4x4x32x1x2048 (![0, 1, 2, 3, 4, 5, 6] : Fin 7 → Fin S2x4x4x4x32x1x2048.rank)
  bcast_S_S2x4x4x4x32x1x2048 : S_.BroadcastsInDim S2x4x4x4x32x1x2048 (![] : Fin 0 → Fin S2x4x4x4x32x1x2048.rank)
  shapeCasts_S2x4x4x4x32x1x2048_S2x16x128x2048 : S2x4x4x4x32x1x2048.ShapeCasts S2x16x128x2048
  dot_S2x16x2048x128_S2x16x128x2048_S2x16x2048x2048_3_2_2_3_01_01_wf : DotDims.WF S2x16x2048x128 S2x16x128x2048 S2x16x2048x2048 [3] [2] [2] [3] [0, 1] [0, 1]

variable [Facts₀]

def dot_S2x16x2048x128_S2x16x128x2048_S2x16x2048x2048_3_2_2_3_01_01 : DotDims S2x16x2048x128 S2x16x128x2048 S2x16x2048x2048 where
  lhsContracting := [3]
  rhsContracting := [2]
  lhsNonContracting := [2]
  rhsNonContracting := [3]
  lhsBatch := [0, 1]
  rhsBatch := [0, 1]
  wf := dot_S2x16x2048x128_S2x16x128x2048_S2x16x2048x2048_3_2_2_3_01_01_wf

class Facts : Prop extends Facts₀ where

variable [Facts]
-- ==== Proof.Spec.lean ====
/-
  The function both programs compute, stated once over the four argument arrays.

  One entry `x` under a quantisation step `s` becomes `clamp (round (x / s)) · s`: the quotient rounded to the
  nearest integer (ties to even), clamped into [-128, 127], and scaled back by the step. The step of an entry of
  `A[b, h, r, k]` depends only on the head's group `h / 4` and on the row's block `r / 512`; the step of an entry of
  `B[b, h, k, j]` on the group `h / 4` and on the contracted row's block `k / 32`. The result at `(b, h, r, j)` is the
  sum over the 128 contracted positions `k` of the product of the two quantised entries.
-/
import Idealize.ShloMosaic.PureOps.Ideal
import Idealize.ShloMosaic.Lib.ValueIdx

noncomputable section

namespace Cert.QuantMatmul

open Idealize.ShloMosaic Idealize.ShloMosaic.ValueIdx

/-- The shapes of the left operand, the right operand, a table of steps, and the result. -/
abbrev SA : Shape := ⟨4, ![2, 16, 2048, 128]⟩
abbrev SB : Shape := ⟨4, ![2, 16, 128, 2048]⟩
abbrev SI : Shape := ⟨7, ![1, 4, 1, 4, 1, 1, 1]⟩
abbrev SO : Shape := ⟨4, ![2, 16, 2048, 2048]⟩

/-- One entry quantised with step `s`: round `x / s` to the nearest integer, clamp into [-128, 127], scale by `s`. -/
def fq (x s : EReal) : EReal :=
  min (Ideal.ofBits .f32 0x42FE0000#32)
      (max (Ideal.ofBits .f32 0xC3000000#32) (Ideal.liftRound Ideal.roundHalfEven (Ideal.div x s))) * s

/-- A head's group: four consecutive heads share their steps. -/
def grp (h : Fin 16) : Fin 4 := ⟨h.val / 4, by have := h.isLt; omega⟩
/-- A row's block among the 2048 rows of the left operand: 512 consecutive rows share a step. -/
def rowBlk (r : Fin 2048) : Fin 4 := ⟨r.val / 512, by have := r.isLt; omega⟩
/-- A contracted position's block among the 128 rows of the right operand: 32 consecutive rows share a step. -/
def kBlk (k : Fin 128) : Fin 4 := ⟨k.val / 32, by have := k.isLt; omega⟩

/-- The table index of group `g` and block `v`: the table's other five axes have extent one. -/
abbrev ivIdx (g v : Fin 4) : SI.Idx := fun a => match a with
  | ⟨0, _⟩ => ⟨0, Nat.one_pos⟩
  | ⟨1, _⟩ => ⟨g.val, g.isLt⟩
  | ⟨2, _⟩ => ⟨0, Nat.one_pos⟩
  | ⟨3, _⟩ => ⟨v.val, v.isLt⟩
  | ⟨4, _⟩ => ⟨0, Nat.one_pos⟩
  | ⟨5, _⟩ => ⟨0, Nat.one_pos⟩
  | ⟨6, _⟩ => ⟨0, Nat.one_pos⟩

/-- The result at explicit coordinates. -/
def Gat (A : SA.Idx → EReal) (B : SB.Idx → EReal) (Ai Bi : SI.Idx → EReal)
    (b : Fin 2) (h : Fin 16) (r : Fin 2048) (j : Fin 2048) : EReal :=
  ∑ k : Fin 128, fq (A (ix4 b h r k)) (Ai (ivIdx (grp h) (rowBlk r))) * fq (B (ix4 b h k j)) (Bi (ivIdx (grp h) (kBlk k)))

/-- The result array as one function of the argument arrays. -/
def G (A : SA.Idx → EReal) (B : SB.Idx → EReal) (Ai Bi : SI.Idx → EReal) : SO.Idx → EReal :=
  fun i => Gat A B Ai Bi (i 0) (i 1) (i 2) (i 3)

end Cert.QuantMatmul

end
-- ==== Proof.LibRank7.lean ====
/-
  The row-major position of a rank-7 index as one sum of products, for any extents: what a reshape between a
  rank-7 array and another array is read through.
-/
import Idealize.ShloMosaic.Lib.ValueIdx

namespace Cert.Lib.Rank7

open Idealize.ShloMosaic

/-- The row-major position of a rank-7 index `i` over extents `d`: Horner's form in the coordinates,
    the last coordinate varying fastest. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

end Cert.Lib.Rank7
-- ==== Proof.RefValue.lean ====
/-
  The reference's result, read entry by entry, is the specified function of the arguments.

  The reference views each operand as a rank-7 array so that the table of steps broadcasts against it: the
  left operand `[2, 16, 2048, 128]` as `[2, 4, 4, 4, 512, 1, 128]` (the head split as group × head in group,
  the row as block × row in block), the right operand `[2, 16, 128, 2048]` as `[2, 4, 4, 4, 32, 1, 2048]`.
  A reshape keeps row-major positions, so entry `(b, h, r, k)` of the left operand sits at
  `(b, h / 4, h % 4, r / 512, r % 512, 0, k)` and meets the step of group `h / 4` and block `r / 512`; likewise
  entry `(b, h, k, j)` of the right operand meets the step of group `h / 4` and block `k / 32`. Quantised and
  reshaped back, the two operands are multiplied over the contracted axis, batch by batch.
-/
import proofs.«176171_j68839735820689_1_alg».proof.Proof.Gen.ReferenceIdeal.Read
import proofs.«176171_j68839735820689_1_alg».proof.Proof.Spec
import proofs.«176171_j68839735820689_1_alg».proof.Proof.LibRank7

noncomputable section

namespace Cert.ReferenceIdeal.RefValue

open Cert.ReferenceIdeal Cert.ReferenceIdeal.Gen Cert.ReferenceIdeal.Read Cert.QuantMatmul
open Idealize.ShloMosaic Idealize.ShloMosaic.ValueIdx

/-! ## The rank-7 views -/

/-- Where entry `j` of the left operand sits in its rank-7 view. -/
abbrev splitA (j : S2x16x2048x128.Idx) : S2x4x4x4x512x1x128.Idx := fun a => match a with
  | ⟨0, _⟩ => ⟨(j 0).val, (j 0).isLt⟩
  | ⟨1, _⟩ => ⟨(j 1).val / 4, by have h : (j 1).val < 16 := (j 1).isLt; show (j 1).val / 4 < 4; omega⟩
  | ⟨2, _⟩ => ⟨(j 1).val % 4, by show (j 1).val % 4 < 4; omega⟩
  | ⟨3, _⟩ => ⟨(j 2).val / 512, by have h : (j 2).val < 2048 := (j 2).isLt; show (j 2).val / 512 < 4; omega⟩
  | ⟨4, _⟩ => ⟨(j 2).val % 512, by show (j 2).val % 512 < 512; omega⟩
  | ⟨5, _⟩ => ⟨0, Nat.one_pos⟩
  | ⟨6, _⟩ => ⟨(j 3).val, (j 3).isLt⟩

/-- It has `j`'s row-major position. -/
theorem splitA_pos (j : S2x16x2048x128.Idx) :
    (S2x4x4x4x512x1x128.rowMajor (splitA j)).val = (S2x16x2048x128.rowMajor j).val := by
  have h1 : (j 1).val < 16 := (j 1).isLt
  have h2 : (j 2).val < 2048 := (j 2).isLt
  rw [Cert.Lib.Rank7.rowMajor_val_seven, Shape.rowMajor_val_four]
  show (((((((j 0).val * 4 + (j 1).val / 4) * 4 + (j 1).val % 4) * 4 + (j 2).val / 512) * 512 + (j 2).val % 512) * 1 + 0) * 128
      + (j 3).val) = (((j 0).val * 16 + (j 1).val) * 2048 + (j 2).val) * 128 + (j 3).val
  omega

/-- Where entry `j` of the right operand sits in its rank-7 view. -/
abbrev splitB (j : S2x16x128x2048.Idx) : S2x4x4x4x32x1x2048.Idx := fun a => match a with
  | ⟨0, _⟩ => ⟨(j 0).val, (j 0).isLt⟩
  | ⟨1, _⟩ => ⟨(j 1).val / 4, by have h : (j 1).val < 16 := (j 1).isLt; show (j 1).val / 4 < 4; omega⟩
  | ⟨2, _⟩ => ⟨(j 1).val % 4, by show (j 1).val % 4 < 4; omega⟩
  | ⟨3, _⟩ => ⟨(j 2).val / 32, by have h : (j 2).val < 128 := (j 2).isLt; show (j 2).val / 32 < 4; omega⟩
  | ⟨4, _⟩ => ⟨(j 2).val % 32, by show (j 2).val % 32 < 32; omega⟩
  | ⟨5, _⟩ => ⟨0, Nat.one_pos⟩
  | ⟨6, _⟩ => ⟨(j 3).val, (j 3).isLt⟩

/-- It has `j`'s row-major position. -/
theorem splitB_pos (j : S2x16x128x2048.Idx) :
    (S2x4x4x4x32x1x2048.rowMajor (splitB j)).val = (S2x16x128x2048.rowMajor j).val := by
  have h1 : (j 1).val < 16 := (j 1).isLt
  have h2 : (j 2).val < 128 := (j 2).isLt
  rw [Cert.Lib.Rank7.rowMajor_val_seven, Shape.rowMajor_val_four]
  show (((((((j 0).val * 4 + (j 1).val / 4) * 4 + (j 1).val % 4) * 4 + (j 2).val / 32) * 32 + (j 2).val % 32) * 1 + 0) * 2048
      + (j 3).val) = (((j 0).val * 16 + (j 1).val) * 128 + (j 2).val) * 2048 + (j 3).val
  omega

/-! ## The two quantised operands at an entry -/

/-- Entry `j` of the quantised left operand: the entry quantised with the step of its head's group and its row's block. -/
theorem quantA_apply (x0 : (⟨S2x16x2048x128, .f32⟩ : BufTy).Contents (Elt Ideal))
    (x2 : (⟨S1x4x1x4x1x1x1, .f32⟩ : BufTy).Contents (Elt Ideal)) (j : S2x16x2048x128.Idx) :
    val_main_v7 (F := Ideal) x0 x2 j = fq (x0 j) (x2 (ivIdx (grp (j 1)) (rowBlk (j 2)))) := by
  unfold val_main_v7
  refine (shapeCast_apply _ _ j (splitA j) (splitA_pos j)).trans ?_
  rw [val_main_v6_apply, val_main_v4_apply, val_main_call1_v4_apply, val_main_call1_v3_apply, val_main_cst_0_apply,
    val_main_call1_v2_apply, val_main_call1_v1_apply, val_main_call1_v0_apply, val_main_cst_apply, val_main_v3_apply,
    val_main_v2_apply, val_main_v1_apply, val_main_v5_apply]
  have e0 : val_main_v0 (F := Ideal) x0 (splitA j) = x0 j := by
    unfold val_main_v0
    exact shapeCast_apply _ _ (splitA j) j (splitA_pos j).symm
  have e1 : idx_main_v1 (splitA j) = ivIdx (grp (j 1)) (rowBlk (j 2)) := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)
  have e5 : idx_main_v5 (splitA j) = ivIdx (grp (j 1)) (rowBlk (j 2)) := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)
  rw [e0, e1, e5]
  rfl

/-- Entry `j` of the quantised right operand: the entry quantised with the step of its head's group and its
    contracted row's block. -/
theorem quantB_apply (x1 : (⟨S2x16x128x2048, .f32⟩ : BufTy).Contents (Elt Ideal))
    (x3 : (⟨S1x4x1x4x1x1x1, .f32⟩ : BufTy).Contents (Elt Ideal)) (j : S2x16x128x2048.Idx) :
    val_main_v15 (F := Ideal) x1 x3 j = fq (x1 j) (x3 (ivIdx (grp (j 1)) (kBlk (j 2)))) := by
  unfold val_main_v15
  refine (shapeCast_apply _ _ j (splitB j) (splitB_pos j)).trans ?_
  rw [val_main_v14_apply, val_main_v12_apply, val_main_call3_v4_apply, val_main_call3_v3_apply, val_main_cst_2_apply,
    val_main_call3_v2_apply, val_main_call3_v1_apply, val_main_call3_v0_apply, val_main_cst_1_apply, val_main_v11_apply,
    val_main_v10_apply, val_main_v9_apply, val_main_v13_apply]
  have e0 : val_main_v8 (F := Ideal) x1 (splitB j) = x1 j := by
    unfold val_main_v8
    exact shapeCast_apply _ _ (splitB j) j (splitB_pos j).symm
  have e1 : idx_main_v9 (splitB j) = ivIdx (grp (j 1)) (kBlk (j 2)) := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)
  have e5 : idx_main_v13 (splitB j) = ivIdx (grp (j 1)) (kBlk (j 2)) := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)
  rw [e0, e1, e5]
  rfl

/-! ## The product -/

/-- The reference's result is the specified function of its four arguments: at each entry the sum over the
    contracted position of the two quantised entries' product. -/
theorem result_eq (x0 : (⟨S2x16x2048x128, .f32⟩ : BufTy).Contents (Elt Ideal))
    (x1 : (⟨S2x16x128x2048, .f32⟩ : BufTy).Contents (Elt Ideal))
    (x2 x3 : (⟨S1x4x1x4x1x1x1, .f32⟩ : BufTy).Contents (Elt Ideal)) :
    val_main_v16 (F := Ideal) x0 x1 x2 x3 = G x0 x1 x2 x3 := by
  funext i
  rw [val_main_v16_apply]
  unfold G Gat
  refine Finset.sum_congr rfl fun k _ => ?_
  have el : lidx_main_v16 i k = ix4 (i 0) (i 1) (i 2) k := funext fun a => Fin.ext (by
    match a with
    | ⟨0, _⟩ => rfl
    | ⟨1, _⟩ => rfl
    | ⟨2, _⟩ => rfl
    | ⟨3, _⟩ => rfl)
  have er : ridx_main_v16 i k = ix4 (i 0) (i 1) k (i 3) := funext fun a => Fin.ext (by
    match a with
    | ⟨0, _⟩ => rfl
    | ⟨1, _⟩ => rfl
    | ⟨2, _⟩ => rfl
    | ⟨3, _⟩ => rfl)
  rw [quantA_apply, quantB_apply, el, er]
  rfl

end Cert.ReferenceIdeal.RefValue

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Payload.lean ====
/-
  What the kernel body computes from the four blocks it loads, read at one entry of its result.

  The body holds a 512×128 block of the left operand with ONE quantisation step, and a 128×2048 block of the
  right operand with one step PER ROW (a one-column block of 128 steps). It quantises both blocks entry by
  entry and multiplies them as matrices into a zero accumulator, so entry `(p, q)` of its result is the sum over
  the 128 contracted positions `k` of the quantised left entry `(p, k)` times the quantised right entry `(k, q)`.
  Over the extended reals the narrowing of the two factors to a shorter float format is the identity.
-/
import proofs.«176171_j68839735820689_1_alg».proof.Proof.Gen.KernelIdeal.Skeleton
import proofs.«176171_j68839735820689_1_alg».proof.Proof.Spec
import proofs.«176171_j68839735820689_1_alg».proof.Proof.LibKeepdims
import Idealize.ShloMosaic.Lib.ValueIdx
import Idealize.ShloMosaic.Lib.Pipeline.Value
import Idealize.ShloMosaic.PureOps.Ideal.Laws

set_option synthInstance.maxSize 4096

noncomputable section

namespace Cert.KernelIdeal.Payload

open Cert.KernelIdeal Cert.KernelIdeal.Gen Cert.QuantMatmul Idealize.ShloMosaic Idealize.ShloMosaic.ValueIdx

/-! ## The matrix product's operand indices, coordinate by coordinate -/

theorem lhs_row (j : S512x2048.Idx) (q : dot_S512x128_S128x2048_S512x2048_1_0_0_1_n_n.contr.Idx) :
    (dot_S512x128_S128x2048_S512x2048_1_0_0_1_n_n.lhsIdx j q 0).val = (j 0).val := by
  unfold DotDims.lhsIdx
  rw [dif_neg (show ¬(0 : Fin S512x128.rank) ∈ dot_S512x128_S128x2048_S512x2048_1_0_0_1_n_n.lhsBatch by decide),
    dif_pos (show (0 : Fin S512x128.rank) ∈ dot_S512x128_S128x2048_S512x2048_1_0_0_1_n_n.lhsNonContracting by decide)]
  rfl
theorem lhs_col (j : S512x2048.Idx) (q : dot_S512x128_S128x2048_S512x2048_1_0_0_1_n_n.contr.Idx) :
    (dot_S512x128_S128x2048_S512x2048_1_0_0_1_n_n.lhsIdx j q 1).val = (q ⟨0, by decide⟩).val :=
  dot_S512x128_S128x2048_S512x2048_1_0_0_1_n_n.lhsIdx_val_of_single rfl j q
theorem rhs_row (j : S512x2048.Idx) (q : dot_S512x128_S128x2048_S512x2048_1_0_0_1_n_n.contr.Idx) :
    (dot_S512x128_S128x2048_S512x2048_1_0_0_1_n_n.rhsIdx j q 0).val = (q ⟨0, by decide⟩).val :=
  dot_S512x128_S128x2048_S512x2048_1_0_0_1_n_n.rhsIdx_val_of_single rfl j q
theorem rhs_col (j : S512x2048.Idx) (q : dot_S512x128_S128x2048_S512x2048_1_0_0_1_n_n.contr.Idx) :
    (dot_S512x128_S128x2048_S512x2048_1_0_0_1_n_n.rhsIdx j q 1).val = (j 1).val := by
  unfold DotDims.rhsIdx
  rw [dif_neg (show ¬(1 : Fin S128x2048.rank) ∈ dot_S512x128_S128x2048_S512x2048_1_0_0_1_n_n.rhsBatch by decide),
    dif_pos (show (1 : Fin S128x2048.rank) ∈ dot_S512x128_S128x2048_S512x2048_1_0_0_1_n_n.rhsNonContracting by decide)]
  rfl

/-! ## The loaded blocks re-laid, read at an index -/

/-- The left block with its two unit axes dropped: entry `(p, k)` is the block's `(0, 0, p, k)`. -/
theorem left_at (v4 : S1x1x512x128.Idx → EReal) (p : Fin 512) (k : Fin 128) :
    shapeCast S512x128 v4 shapeCasts_S1x1x512x128_S512x128 (ix2 p k) = v4 (ix4 0 0 p k) :=
  shapeCast_apply v4 _ (ix2 p k) (ix4 0 0 p k) (by
    rw [Shape.rowMajor_val_four, Shape.rowMajor_val_two]
    show ((0 * 1 + 0) * 512 + p.val) * 128 + k.val = p.val * 128 + k.val
    omega)

/-- The right block with its two unit axes dropped: entry `(k, q)` is the block's `(0, 0, k, q)`. -/
theorem right_at (v6 : S1x1x128x2048.Idx → EReal) (k : Fin 128) (q : Fin 2048) :
    shapeCast S128x2048 v6 shapeCasts_S1x1x128x2048_S128x2048 (ix2 k q) = v6 (ix4 0 0 k q) :=
  shapeCast_apply v6 _ (ix2 k q) (ix4 0 0 k q) (by
    rw [Shape.rowMajor_val_four, Shape.rowMajor_val_two]
    show ((0 * 1 + 0) * 128 + k.val) * 2048 + q.val = k.val * 2048 + q.val
    omega)

/-- The left operand's one step, spread over the whole 512×128 block. -/
theorem leftStep_at (v0 : S1x1x1x1x1.Idx → EReal) (p : Fin 512) (k : Fin 128) :
    broadcastTo S512x128 (shapeCast S1x1 v0 shapeCasts_S1x1x1x1x1_S1x1) broadcasts_S1x1_S512x128 (ix2 p k)
      = v0 (ix5 0 0 0 0 0) := by
  refine (broadcastTo_apply _ broadcasts_S1x1_S512x128 (ix2 p k) (ix2 (0 : Fin 1) (0 : Fin 1)) fun ax => ?_).trans ?_
  · match ax with
    | ⟨0, _⟩ => rfl
    | ⟨1, _⟩ => rfl
  · exact shapeCast_apply v0 _ (ix2 (0 : Fin 1) (0 : Fin 1)) (ix5 0 0 0 0 0) (by
      rw [Shape.rowMajor_val_five, Shape.rowMajor_val_two]; rfl)

/-- The right operand's column of steps, spread along the rows of the 128×2048 block: row `k` carries step `k`. -/
theorem rightStep_at (v2 : S1x1x128x1.Idx → EReal) (k : Fin 128) (q : Fin 2048) :
    broadcastTo S128x2048 (shapeCast S128x1 v2 shapeCasts_S1x1x128x1_S128x1) broadcasts_S128x1_S128x2048 (ix2 k q)
      = v2 (ix4 0 0 k 0) := by
  refine (Cert.Lib.Keepdims.broadcastTo_a1_ab_apply _ broadcasts_S128x1_S128x2048 k q).trans ?_
  exact shapeCast_apply v2 _ (ix2 k (0 : Fin 1)) (ix4 0 0 k 0) (by
    rw [Shape.rowMajor_val_four, Shape.rowMajor_val_two]
    show ((0 * 1 + 0) * 128 + k.val) * 1 + 0 = k.val * 1 + 0
    omega)

/-! ## The body's result at an entry -/

/-- Entry `(p, q)` of what the body stores: the sum over the contracted position `k` of the left entry `(p, k)`
    quantised with the block's one step, times the right entry `(k, q)` quantised with row `k`'s step. -/
theorem body_at (v0 : S1x1x1x1x1.Idx → EReal) (v2 : S1x1x128x1.Idx → EReal) (v4 : S1x1x512x128.Idx → EReal)
    (v6 : S1x1x128x2048.Idx → EReal) (p : Fin 512) (q : Fin 2048) :
    k0_pay2 (F := Ideal) v0 v2 v4 v6 (ix2 p q)
      = ∑ k : Fin 128, fq (v4 (ix4 0 0 p k)) (v0 (ix5 0 0 0 0 0)) * fq (v6 (ix4 0 0 k q)) (v2 (ix4 0 0 k 0)) := by
  unfold k0_pay2
  refine (Ideal.matmul_constant_zero_apply dot_S512x128_S128x2048_S512x2048_1_0_0_1_n_n none _ _ (ix2 p q)).trans ?_
  rw [← Equiv.sum_comp (contrEquiv1 dot_S512x128_S128x2048_S512x2048_1_0_0_1_n_n 128 rfl rfl).symm]
  refine Finset.sum_congr rfl fun k _ => ?_
  have hk := contrEquiv1_symm_val dot_S512x128_S128x2048_S512x2048_1_0_0_1_n_n 128 rfl rfl k
  have el : dot_S512x128_S128x2048_S512x2048_1_0_0_1_n_n.lhsIdx (ix2 p q)
      ((contrEquiv1 dot_S512x128_S128x2048_S512x2048_1_0_0_1_n_n 128 rfl rfl).symm k) = ix2 p k := funext fun a => Fin.ext (by
    match a with
    | ⟨0, _⟩ => exact lhs_row _ _
    | ⟨1, _⟩ => exact (lhs_col _ _).trans hk)
  have er : dot_S512x128_S128x2048_S512x2048_1_0_0_1_n_n.rhsIdx (ix2 p q)
      ((contrEquiv1 dot_S512x128_S128x2048_S512x2048_1_0_0_1_n_n 128 rfl rfl).symm k) = ix2 k q := funext fun a => Fin.ext (by
    match a with
    | ⟨0, _⟩ => exact (rhs_row _ _).trans hk
    | ⟨1, _⟩ => exact rhs_col _ _)
  rw [el, er]
  show (min _ (max _ (Ideal.liftRound Ideal.roundHalfEven (Ideal.div
          (shapeCast S512x128 v4 shapeCasts_S1x1x512x128_S512x128 (ix2 p k))
          (broadcastTo S512x128 (shapeCast S1x1 v0 shapeCasts_S1x1x1x1x1_S1x1) broadcasts_S1x1_S512x128 (ix2 p k)))))
        * broadcastTo S512x128 (shapeCast S1x1 v0 shapeCasts_S1x1x1x1x1_S1x1) broadcasts_S1x1_S512x128 (ix2 p k))
      * (min _ (max _ (Ideal.liftRound Ideal.roundHalfEven (Ideal.div
          (shapeCast S128x2048 v6 shapeCasts_S1x1x128x2048_S128x2048 (ix2 k q))
          (broadcastTo S128x2048 (shapeCast S128x1 v2 shapeCasts_S1x1x128x1_S128x1) broadcasts_S128x1_S128x2048 (ix2 k q)))))
        * broadcastTo S128x2048 (shapeCast S128x1 v2 shapeCasts_S1x1x128x1_S128x1) broadcasts_S128x1_S128x2048 (ix2 k q)) = _
  rw [left_at, right_at, leftStep_at, rightStep_at]
  rfl

/-- Entry `y` of the block the body stores (the product with two unit axes put in front): rows and columns
    are `y`'s last two coordinates. -/
theorem store_at (v0 : S1x1x1x1x1.Idx → EReal) (v2 : S1x1x128x1.Idx → EReal) (v4 : S1x1x512x128.Idx → EReal)
    (v6 : S1x1x128x2048.Idx → EReal) (y : S1x1x512x2048.Idx) (p : Fin 512) (q : Fin 2048)
    (hp : (y 2).val = p.val) (hq : (y 3).val = q.val) :
    k0_pay1 (F := Ideal) (k0_pay2 (F := Ideal) v0 v2 v4 v6) y
      = ∑ k : Fin 128, fq (v4 (ix4 0 0 p k)) (v0 (ix5 0 0 0 0 0)) * fq (v6 (ix4 0 0 k q)) (v2 (ix4 0 0 k 0)) := by
  have y0 : (y 0).val < 1 := (y 0).isLt
  have y1 : (y 1).val < 1 := (y 1).isLt
  unfold k0_pay1
  refine (shapeCast_apply _ shapeCasts_S512x2048_S1x1x512x2048 y (ix2 p q) (by
    rw [Shape.rowMajor_val_two, Shape.rowMajor_val_four]
    show p.val * 2048 + q.val = (((y 0).val * 1 + (y 1).val) * 512 + (y 2).val) * 2048 + (y 3).val
    omega)).trans ?_
  exact body_at v0 v2 v4 v6 p q

end Cert.KernelIdeal.Payload

end
-- ==== Proof.HostGlue.lean ====
/-
  The two arrays of quantisation steps the region reads, as functions of the two tables of steps.

  Before the region the host program computes, for each of the sixteen heads `h`, the index of its group: the floor
  division of `h` by four on 32-bit words (the quotient rounded toward zero, lowered by one where the signs differ and
  the remainder is not zero), then the wrap of a negative index. It gathers, for each head, the row of the 4×4 table its
  group index names (the start index read signed and clamped into the four rows), and lays the gathered rows out over the
  operands' axes. Read at an index, the left operand's array of steps is `a[b, h, v, 0, 0] = Ai[0, h / 4, 0, v, 0, 0, 0]`
  and the right operand's is `b[b, h, k, 0] = Bi[0, h / 4, 0, k / 32, 0, 0, 0]` (`stepA_at`, `stepB_at`).

  The order: the group index as a term over the head counter and its value on each head, by evaluation; the gather read
  at an index; the two layouts read at an index, operation by operation; what each of the three stretches of host
  operations leaves, from any contents; and the two arrays as the region finds them.
-/
import proofs.«176171_j68839735820689_1_alg».proof.Proof.Gen.KernelIdeal.Frame
import proofs.«176171_j68839735820689_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.HostGlue

open Cert.KernelIdeal Cert.KernelIdeal.Gen Cert.QuantMatmul Idealize.ShloMosaic Idealize.ShloMosaic.TcCoe
open Idealize.ShloMosaic.ValueIdx Idealize.SL.Sem

variable {F : FTy → Type} [FloatOps F]
variable (m : (ℓ : Loc nD τ sig) → Buf (Elt F) ℓ)

/-! ## The head's group as the host computes it -/

/-- The word `b` on each of the sixteen heads. -/
def splat (b : BitVec 32) : IVec S16 32 := broadcastInDim S16 ![] bcast_S_S16 (constantI S_ 32 b)

/-- Floor division of `x` by the scalar `d`: the quotient rounded toward zero, lowered by one where the signs of
    `x` and `d` differ and the remainder is not zero. -/
def floorDiv (x : IVec S16 32) (d : IVec S_ 32) : IVec S16 32 :=
  select
    (andi (cmpi .ne (signi x) (broadcastInDim S16 ![] bcast_S_S16 (signi d)))
      (cmpi .ne (Host.remsi x (broadcastInDim S16 ![] bcast_S_S16 d)) (splat 0#32)))
    (subi (Host.divsi x (broadcastInDim S16 ![] bcast_S_S16 d)) (splat 1#32))
    (Host.divsi x (broadcastInDim S16 ![] bcast_S_S16 d))

/-- A negative index counted from the end of an axis of extent four: `x + 4` where `x < 0`, else `x`. -/
def wrap4 (x : IVec S16 32) : IVec S16 32 :=
  select (cmpi .slt x (splat 0#32)) (addi x (splat 4#32)) x

/-- The group index of each head: the head counter floor-divided by four, wrapped. -/
def hidx : IVec S16 32 := wrap4 (floorDiv (iotaInDim S16 32 0) (constantI S_ 32 4#32))

/-- Head `h`'s group index is the word `h / 4`. -/
theorem hidx_at : ∀ h : Fin 16, hidx (ix1 h) = BitVec.ofNat 32 (h.val / 4) := by decide +kernel

/-- Read as a signed integer and clamped into the table's four rows, head `h`'s group index is `h / 4`. -/
theorem row_eq : ∀ h : Fin 16, (⟨min (hidx (ix1 h)).toInt.toNat 3, by omega⟩ : Fin 4) = grp h := by decide +kernel

/-! ## The gather of table rows -/

local notation "gD" => gather_S4x4_S16x1_S16x4_1_0_n_n_0_1_14

/-- The gather at `(h, v)`, where head `h`'s start index is the word `w`: the table at row `w` (read signed, clamped
    into the four rows) and at column `v`. Axis 0 of the table is collapsed and carries the start; axis 1 is the offset axis. -/
theorem gather_at {α : Type} (x : S4x4.Idx → α) (idx : IVec S16x1 32) (h : Fin 16) (v : Fin 4)
    (w : BitVec 32) (hw : idx (ix2 h (0 : Fin 1)) = w) :
    Host.gather gD x idx (ix2 h v) = x (ix2 (⟨min w.toInt.toNat 3, by omega⟩ : Fin 4) v) := by
  subst hw
  unfold Host.gather
  congr 1
  funext a
  refine Fin.ext ?_
  have hB : ∀ a : Fin 2, a ∉ (gD).operandBatchingDims := fun a => List.not_mem_nil
  match a with
  | ⟨0, _⟩ =>
    show (gD).start (ix2 h v) idx 0 + (gD).batchCoord (ix2 h v) 0 + (gD).offCoord (ix2 h v) 0 = min (idx (ix2 h (0 : Fin 1))).toInt.toNat 3
    rw [GatherDims.batchCoord_eq_zero _ _ _ (hB 0),
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (gD).startIndexMap from List.mem_singleton.mpr rfl)]
    have hsi : (gD).siIdx (ix2 h v) ⟨List.idxOf (0 : Fin 2) (gD).startIndexMap,
        List.idxOf_lt_length_iff.2 (List.mem_singleton.mpr rfl)⟩ = ix2 h (0 : Fin 1) := by
      funext b; refine Fin.ext ?_
      match b with
      | ⟨0, _⟩ => rfl
      | ⟨1, _⟩ => rfl
    rw [hsi]
    rfl
  | ⟨1, _⟩ =>
    show (gD).start (ix2 h v) idx 1 + (gD).batchCoord (ix2 h v) 1 + (gD).offCoord (ix2 h v) 1 = v.val
    have hs : (gD).start (ix2 h v) idx 1 = 0 := by
      unfold GatherDims.start
      rw [dif_neg (show (1 : Fin 2) ∉ (gD).startIndexMap from fun hm => absurd (List.mem_singleton.mp hm) (by decide))]
    have ho : (gD).offCoord (ix2 h v) 1 = v.val := by
      unfold GatherDims.offCoord
      rw [dif_pos ((GatherDims.mem_sKept _ _).mpr ⟨show (1 : Fin 2) ∉ (gD).collapsedSliceDims from fun hm => absurd (List.mem_singleton.mp hm) (by decide), hB 1⟩)]
      rfl
    rw [GatherDims.batchCoord_eq_zero _ _ _ (hB 1), hs, ho, Nat.add_zero, Nat.zero_add]

/-- The start indices as a column: entry `(h, 0)` is head `h`'s. -/
theorem col_at {α : Type} (i : S16.Idx → α) (h : Fin 16) :
    broadcastInDim S16x1 ![0] bcast_S16_S16x1_0 i (ix2 h (0 : Fin 1)) = i (ix1 h) :=
  broadcastInDim_apply _ bcast_S16_S16x1_0 i (ix2 h (0 : Fin 1)) (ix1 h) (fun a => match a with
    | ⟨0, _⟩ => by show h.val = if (16 : Nat) = 1 then 0 else h.val; rw [if_neg (by decide)])

/-- The 4×4 table as the seven-axis argument holds it: entry `(g, v)` is the argument's at `(0, g, 0, v, 0, 0, 0)`. -/
theorem table_at {α : Type} (x : S1x4x1x4x1x1x1.Idx → α) (g v : Fin 4) :
    shapeCast S4x4 x shapeCasts_S1x4x1x4x1x1x1_S4x4 (ix2 g v) = x (ivIdx g v) := by
  refine shapeCast_apply x _ (ix2 g v) (ivIdx g v) ?_
  rw [Shape.rowMajor_val_two, Shape.rowMajor_val_succ, Shape.rowMajor_val_succ, Shape.rowMajor_val_five]
  have e6 : (⟨6, fun a : Fin 6 => ![1, 4, 1, 4, 1, 1, 1] a.succ⟩ : Shape).numel = 16 := by decide
  have e5 : (⟨5, fun a : Fin 5 => ![1, 4, 1, 4, 1, 1, 1] a.succ.succ⟩ : Shape).numel = 4 := by decide
  rw [e6, e5]
  show 0 * 16 + (g.val * 4 + ((((0 * 4 + v.val) * 1 + 0) * 1 + 0) * 1 + 0)) = g.val * 4 + v.val
  omega

/-! ## The two step arrays as terms of the tables -/

/-- The left operand's steps `[2, 16, 4, 1, 1]` from the 4×4 table `x` and the heads' start indices `i`: the rows
    `i` names gathered, repeated over the batch axis, with two unit axes appended. -/
def stepA {α : Type} (x : S4x4.Idx → α) (i : IVec S16 32) : S2x16x4x1x1.Idx → α :=
  shapeCast S2x16x4x1x1
    (broadcastInDim S2x16x4 ![0, 1, 2] bcast_S1x16x4_S2x16x4_0_1_2
      (broadcastInDim S1x16x4 ![1, 2] bcast_S16x4_S1x16x4_1_2
        (Host.gather gather_S4x4_S16x1_S16x4_1_0_n_n_0_1_14 x (broadcastInDim S16x1 ![0] bcast_S16_S16x1_0 i))))
    shapeCasts_S2x16x4_S2x16x4x1x1

/-- The right operand's steps `[2, 16, 128, 1]`: the gathered rows, each entry repeated over its 32 contracted
    positions, repeated over the batch axis, with a unit axis appended. -/
def stepB {α : Type} (x : S4x4.Idx → α) (i : IVec S16 32) : S2x16x128x1.Idx → α :=
  shapeCast S2x16x128x1
    (broadcastInDim S2x16x128 ![0, 1, 2] bcast_S1x16x128_S2x16x128_0_1_2
      (broadcastInDim S1x16x128 ![1, 2] bcast_S16x128_S1x16x128_1_2
        (shapeCast S16x128
          (broadcastInDim S16x4x32 ![0, 1] bcast_S16x4_S16x4x32_0_1
            (Host.gather gather_S4x4_S16x1_S16x4_1_0_n_n_0_1_14 x (broadcastInDim S16x1 ![0] bcast_S16_S16x1_0 i)))
          shapeCasts_S16x4x32_S16x128)))
    shapeCasts_S2x16x128_S2x16x128x1

/-! ## The step arrays read at an index -/

/-- The left operand's step at `(b, h, v, 0, 0)`: the table at the row head `h`'s start index names and at column `v`. -/
theorem stepA_read {α : Type} (x : S4x4.Idx → α) (i : IVec S16 32) (b : Fin 2) (h : Fin 16) (v : Fin 4) (z z' : Fin 1) :
    stepA x i (ix5 b h v z z') = x (ix2 (⟨min (i (ix1 h)).toInt.toNat 3, by omega⟩ : Fin 4) v) := by
  unfold stepA
  refine (shapeCast_apply _ shapeCasts_S2x16x4_S2x16x4x1x1 (ix5 b h v z z') (ix3 b h v) ?_).trans ?_
  · rw [Shape.rowMajor_val_three, Shape.rowMajor_val_five]
    show (b.val * 16 + h.val) * 4 + v.val = (((b.val * 16 + h.val) * 4 + v.val) * 1 + z.val) * 1 + z'.val
    have := z.isLt; have := z'.isLt; omega
  refine (broadcastInDim_apply _ bcast_S1x16x4_S2x16x4_0_1_2 _ (ix3 b h v) (ix3 (0 : Fin 1) h v) (fun a => match a with
    | ⟨0, _⟩ => by show 0 = if (1 : Nat) = 1 then 0 else b.val; rw [if_pos rfl]
    | ⟨1, _⟩ => by show h.val = if (16 : Nat) = 1 then 0 else h.val; rw [if_neg (by decide)]
    | ⟨2, _⟩ => by show v.val = if (4 : Nat) = 1 then 0 else v.val; rw [if_neg (by decide)])).trans ?_
  refine (broadcastInDim_apply _ bcast_S16x4_S1x16x4_1_2 _ (ix3 (0 : Fin 1) h v) (ix2 h v) (fun a => match a with
    | ⟨0, _⟩ => by show h.val = if (16 : Nat) = 1 then 0 else h.val; rw [if_neg (by decide)]
    | ⟨1, _⟩ => by show v.val = if (4 : Nat) = 1 then 0 else v.val; rw [if_neg (by decide)])).trans ?_
  exact gather_at x _ h _ _ (col_at i h)

/-- The right operand's step at `(b, h, k, 0)`: the table at the row head `h`'s start index names and at the column of
    `k`'s block of 32 contracted positions. -/
theorem stepB_read {α : Type} (x : S4x4.Idx → α) (i : IVec S16 32) (b : Fin 2) (h : Fin 16) (k : Fin 128) (z : Fin 1) :
    stepB x i (ix4 b h k z) = x (ix2 (⟨min (i (ix1 h)).toInt.toNat 3, by omega⟩ : Fin 4) (kBlk k)) := by
  unfold stepB
  refine (shapeCast_apply _ shapeCasts_S2x16x128_S2x16x128x1 (ix4 b h k z) (ix3 b h k) ?_).trans ?_
  · rw [Shape.rowMajor_val_three, Shape.rowMajor_val_four]
    show (b.val * 16 + h.val) * 128 + k.val = ((b.val * 16 + h.val) * 128 + k.val) * 1 + z.val
    have := z.isLt; omega
  refine (broadcastInDim_apply _ bcast_S1x16x128_S2x16x128_0_1_2 _ (ix3 b h k) (ix3 (0 : Fin 1) h k) (fun a => match a with
    | ⟨0, _⟩ => by show 0 = if (1 : Nat) = 1 then 0 else b.val; rw [if_pos rfl]
    | ⟨1, _⟩ => by show h.val = if (16 : Nat) = 1 then 0 else h.val; rw [if_neg (by decide)]
    | ⟨2, _⟩ => by show k.val = if (128 : Nat) = 1 then 0 else k.val; rw [if_neg (by decide)])).trans ?_
  refine (broadcastInDim_apply _ bcast_S16x128_S1x16x128_1_2 _ (ix3 (0 : Fin 1) h k) (ix2 h k) (fun a => match a with
    | ⟨0, _⟩ => by show h.val = if (16 : Nat) = 1 then 0 else h.val; rw [if_neg (by decide)]
    | ⟨1, _⟩ => by show k.val = if (128 : Nat) = 1 then 0 else k.val; rw [if_neg (by decide)])).trans ?_
  refine (shapeCast_apply _ shapeCasts_S16x4x32_S16x128 (ix2 h k)
    (ix3 h (kBlk k) (⟨k.val % 32, Nat.mod_lt _ (by decide)⟩ : Fin 32)) ?_).trans ?_
  · rw [Shape.rowMajor_val_three, Shape.rowMajor_val_two]
    show (h.val * 4 + k.val / 32) * 32 + k.val % 32 = h.val * 128 + k.val
    omega
  refine (broadcastInDim_apply _ bcast_S16x4_S16x4x32_0_1 _
    (ix3 h (kBlk k) (⟨k.val % 32, Nat.mod_lt _ (by decide)⟩ : Fin 32)) (ix2 h (kBlk k)) (fun a => match a with
    | ⟨0, _⟩ => by show h.val = if (16 : Nat) = 1 then 0 else h.val; rw [if_neg (by decide)]
    | ⟨1, _⟩ => by show (kBlk k).val = if (4 : Nat) = 1 then 0 else (kBlk k).val; rw [if_neg (by decide)])).trans ?_
  exact gather_at x _ h _ _ (col_at i h)

/-! ## What each stretch of host operations leaves, from any contents -/

section After
open Idealize.ShloMosaic.StableHlo

/-- The first stretch leaves the first table as a 4×4 array. -/
theorem after0_v0 (W : Valuation τ sig (Elt F)) :
    (StableHlo.after (hostOps0 (F := F)) W (Proc.devRef .tc main_v0) : S4x4.Idx → Elt F .f32)
      = shapeCast S4x4 (W (Proc.devRef .tc main_arg2) : S1x4x1x4x1x1x1.Idx → Elt F .f32) shapeCasts_S1x4x1x4x1x1x1_S4x4 := by
  dsimp only [hostOps0]; after_results <;> rfl

/-- The first stretch leaves the second table as a 4×4 array. -/
theorem after0_v1 (W : Valuation τ sig (Elt F)) :
    (StableHlo.after (hostOps0 (F := F)) W (Proc.devRef .tc main_v1) : S4x4.Idx → Elt F .f32)
      = shapeCast S4x4 (W (Proc.devRef .tc main_arg3) : S1x4x1x4x1x1x1.Idx → Elt F .f32) shapeCasts_S1x4x1x4x1x1x1_S4x4 := by
  dsimp only [hostOps0]; after_results <;> rfl

/-- The first stretch leaves the head counter `0, 1, …, 15`. -/
theorem after0_v2 (W : Valuation τ sig (Elt F)) :
    (StableHlo.after (hostOps0 (F := F)) W (Proc.devRef .tc main_v2) : IVec S16 32) = iotaInDim S16 32 0 := by
  dsimp only [hostOps0]; after_results <;> rfl

/-- The first stretch leaves the divisor, the word `4`. -/
theorem after0_c (W : Valuation τ sig (Elt F)) :
    (StableHlo.after (hostOps0 (F := F)) W (Proc.devRef .tc main_c) : IVec S_ 32) = constantI S_ 32 4#32 := by
  dsimp only [hostOps0]; after_results <;> rfl

/-- The second stretch leaves the floor division of the head counter by the divisor. -/
theorem after1_v3 (W : Valuation τ sig (Elt F)) :
    (StableHlo.after (hostOps0_1 (F := F)) W (Proc.devRef .tc main_v3) : IVec S16 32)
      = floorDiv (W (Proc.devRef .tc main_v2)) (W (Proc.devRef .tc main_c)) := by
  dsimp only [hostOps0_1]; after_results <;> rfl

/-- The second stretch does not write the first 4×4 table. -/
theorem after1_v0 (W : Valuation τ sig (Elt F)) :
    StableHlo.after (hostOps0_1 (F := F)) W (Proc.devRef .tc main_v0) = W (Proc.devRef .tc main_v0) := by
  dsimp only [hostOps0_1]; after_results <;> rfl

/-- The second stretch does not write the second 4×4 table. -/
theorem after1_v1 (W : Valuation τ sig (Elt F)) :
    StableHlo.after (hostOps0_1 (F := F)) W (Proc.devRef .tc main_v1) = W (Proc.devRef .tc main_v1) := by
  dsimp only [hostOps0_1]; after_results <;> rfl

/-- The third stretch leaves the left operand's steps: `stepA` of the first table and the wrapped quotients. -/
theorem after2_v13 (W : Valuation τ sig (Elt F)) :
    (StableHlo.after (hostOps0_2 (F := F)) W (Proc.devRef .tc main_v13) : S2x16x4x1x1.Idx → Elt F .f32)
      = stepA (W (Proc.devRef .tc main_v0) : S4x4.Idx → Elt F .f32) (wrap4 (W (Proc.devRef .tc main_v3))) := by
  dsimp only [hostOps0_2]; after_results <;> rfl

/-- The third stretch leaves the right operand's steps: `stepB` of the second table and the wrapped quotients. -/
theorem after2_v25 (W : Valuation τ sig (Elt F)) :
    (StableHlo.after (hostOps0_2 (F := F)) W (Proc.devRef .tc main_v25) : S2x16x128x1.Idx → Elt F .f32)
      = stepB (W (Proc.devRef .tc main_v1) : S4x4.Idx → Elt F .f32) (wrap4 (W (Proc.devRef .tc main_v3))) := by
  dsimp only [hostOps0_2]; after_results_simp <;> rfl

end After

/-- The left operand's steps as the region finds them. -/
theorem V_v13 (c : Dev nD) :
    (V m c main_v13 : S2x16x4x1x1.Idx → Elt F .f32)
      = stepA (shapeCast S4x4 (m ((c : Thread nD τ).loc main_arg2) : S1x4x1x4x1x1x1.Idx → Elt F .f32) shapeCasts_S1x4x1x4x1x1x1_S4x4) hidx := by
  dsimp only [V]
  simp only [List.flatten_cons, List.flatten_nil, List.append_nil, StableHlo.after_append]
  rw [after2_v13, after1_v3, after1_v0, after0_v0, after0_v2, after0_c]
  rfl

/-- The right operand's steps as the region finds them. -/
theorem V_v25 (c : Dev nD) :
    (V m c main_v25 : S2x16x128x1.Idx → Elt F .f32)
      = stepB (shapeCast S4x4 (m ((c : Thread nD τ).loc main_arg3) : S1x4x1x4x1x1x1.Idx → Elt F .f32) shapeCasts_S1x4x1x4x1x1x1_S4x4) hidx := by
  dsimp only [V]
  simp only [List.flatten_cons, List.flatten_nil, List.append_nil, StableHlo.after_append]
  rw [after2_v25, after1_v3, after1_v1, after0_v1, after0_v2, after0_c]
  rfl

/-! ## The two windows' arrays at an index -/

/-- The left operand's steps, as the region finds them, at `(b, h, v, 0, 0)`: the first table at group `h / 4` and
    block `v`. -/
theorem stepA_at (c : Dev nD) (j : S2x16x4x1x1.Idx) :
    (V m c main_v13 : S2x16x4x1x1.Idx → Elt F .f32) j
      = (m ((c : Thread nD τ).loc main_arg2) : S1x4x1x4x1x1x1.Idx → Elt F .f32) (ivIdx (grp (j 1)) (j 2)) := by
  obtain ⟨b, h, v, z, z', rfl⟩ : ∃ (b : Fin 2) (h : Fin 16) (v : Fin 4) (z z' : Fin 1), j = ix5 b h v z z' :=
    ⟨_, _, _, _, _, eq_ix5 j⟩
  rw [V_v13, stepA_read, row_eq, table_at]

/-- The right operand's steps, as the region finds them, at `(b, h, k, 0)`: the second table at group `h / 4` and
    block `k / 32`. -/
theorem stepB_at (c : Dev nD) (j : S2x16x128x1.Idx) :
    (V m c main_v25 : S2x16x128x1.Idx → Elt F .f32) j
      = (m ((c : Thread nD τ).loc main_arg3) : S1x4x1x4x1x1x1.Idx → Elt F .f32) (ivIdx (grp (j 1)) (kBlk (j 2))) := by
  obtain ⟨b, h, k, z, rfl⟩ : ∃ (b : Fin 2) (h : Fin 16) (k : Fin 128) (z : Fin 1), j = ix4 b h k z :=
    ⟨_, _, _, _, eq_ix4 j⟩
  rw [V_v25, stepB_read, row_eq, table_at]

end Cert.KernelIdeal.HostGlue

end
-- ==== Proof.KernelValue.lean ====
/-
  The kernel's result array, entry by entry, is the specified function of the arguments.

  The grid has one point per batch `b`, head `h` and block `mt` of 512 rows. At that point the body sees rows
  `mt·512 … mt·512 + 511` of the left operand of `(b, h)`, the whole right operand of `(b, h)`, the one step of the
  head's group and the row block `mt`, and the column of 128 steps of the head's group (row `k` carrying the step of
  block `k / 32`); it writes rows `mt·512 … mt·512 + 511` of the result of `(b, h)`. So entry `(p, q)` of what point
  `(b, h, mt)` writes is the specified function at `(b, h, mt·512 + p, q)`, and the 128 blocks tile the result array.
-/
import proofs.«176171_j68839735820689_1_alg».proof.Proof.Gen.KernelIdeal.Value
import proofs.«176171_j68839735820689_1_alg».proof.Proof.Payload
import proofs.«176171_j68839735820689_1_alg».proof.Proof.HostGlue
import proofs.«176171_j68839735820689_1_alg».proof.Proof.Spec

set_option maxRecDepth 16384

noncomputable section

namespace Cert.KernelIdeal.KernelValue

open Cert.KernelIdeal Cert.KernelIdeal.Gen Cert.KernelIdeal.Value Cert.QuantMatmul
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specified result of the four argument arrays as launched. -/
abbrev result (c : Dev nD) : S2x16x2048x2048.Idx → EReal :=
  G (m ((c : Thread nD τ).loc main_arg0)) (m ((c : Thread nD τ).loc main_arg1))
    (m ((c : Thread nD τ).loc main_arg2)) (m ((c : Thread nD τ).loc main_arg3))

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-! ## Which blocks a point sees -/

/-- Decided over the 128 points: every input window's block index follows the output's — batch and head on the
    first two axes; the row block on the third axis of the left operand and of its step; zero elsewhere. -/
theorem idx_facts : ∀ t : Fin cfg0.N,
    win0_0.index t (0 : Fin 5) = win0_4.index t (0 : Fin 4) ∧ win0_0.index t (1 : Fin 5) = win0_4.index t (1 : Fin 4)
    ∧ win0_0.index t (2 : Fin 5) = win0_4.index t (2 : Fin 4) ∧ win0_0.index t (3 : Fin 5) = 0 ∧ win0_0.index t (4 : Fin 5) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = win0_4.index t (2 : Fin 4) ∧ win0_2.index t (3 : Fin 4) = 0
    ∧ win0_3.index t (0 : Fin 4) = win0_4.index t (0 : Fin 4) ∧ win0_3.index t (1 : Fin 4) = win0_4.index t (1 : Fin 4)
    ∧ win0_3.index t (2 : Fin 4) = 0 ∧ win0_3.index t (3 : Fin 4) = 0
    ∧ win0_4.index t (0 : Fin 4) < 2 ∧ win0_4.index t (1 : Fin 4) < 16 ∧ win0_4.index t (2 : Fin 4) < 4
    ∧ win0_4.index t (3 : Fin 4) = 0 :=
  (by decide +kernel : ∀ t : Fin grid0.N, _)

/-- Every (batch, head, row block) is some point's. -/
theorem idx_onto : ∀ (q0 : Fin 2) (q1 : Fin 16) (q2 : Fin 4), ∃ t : Fin cfg0.N, win0_4.index t = ![q0.val, q1.val, q2.val, 0] :=
  (by decide +kernel : ∀ (q0 : Fin 2) (q1 : Fin 16) (q2 : Fin 4), ∃ t : Fin grid0.N, win0_4.index t = ![q0.val, q1.val, q2.val, 0])

/-! ## The four input blocks at a point, read off the argument arrays -/

/-- The left operand's block: entry `(p, k)` is the array's entry at the point's batch and head, row
    `mt·512 + p`, column `k`. -/
theorem read_left (c : Dev nD) (t : Fin cfg0.N) (p : Fin 512) (k : Fin 128) (i : S2x16x2048x128.Idx)
    (h0 : (i 0).val = win0_4.index t (0 : Fin 4)) (h1 : (i 1).val = win0_4.index t (1 : Fin 4))
    (h2 : (i 2).val = win0_4.index t (2 : Fin 4) * 512 + p.val) (h3 : (i 3).val = k.val) :
    iblk m c 2 t (ix4 0 0 p k) = (m ((c : Thread nD τ).loc main_arg0) : S2x16x2048x128.Idx → EReal) i := by
  obtain ⟨-, -, -, -, -, -, -, -, -, f0, f1, f2, f3, -⟩ := idx_facts t
  show V m c main_arg0 (((cfg0.win 2).blk t).view.emb (ix4 0 0 p k)) = _
  rw [V_main_arg0]
  refine congrArg _ (funext fun a => Fin.ext ?_)
  match a with
  | ⟨0, _⟩ => show win0_2.index t (0 : Fin 4) * 1 + 1 * 0 = (i 0).val; omega
  | ⟨1, _⟩ => show win0_2.index t (1 : Fin 4) * 1 + 1 * 0 = (i 1).val; omega
  | ⟨2, _⟩ => show win0_2.index t (2 : Fin 4) * 512 + 1 * p.val = (i 2).val; omega
  | ⟨3, _⟩ => show win0_2.index t (3 : Fin 4) * 128 + 1 * k.val = (i 3).val; omega

/-- The right operand's block: entry `(k, q)` is the array's entry at the point's batch and head, row `k`, column `q`. -/
theorem read_right (c : Dev nD) (t : Fin cfg0.N) (k : Fin 128) (q : Fin 2048) (i : S2x16x128x2048.Idx)
    (h0 : (i 0).val = win0_4.index t (0 : Fin 4)) (h1 : (i 1).val = win0_4.index t (1 : Fin 4))
    (h2 : (i 2).val = k.val) (h3 : (i 3).val = q.val) :
    iblk m c 3 t (ix4 0 0 k q) = (m ((c : Thread nD τ).loc main_arg1) : S2x16x128x2048.Idx → EReal) i := by
  obtain ⟨-, -, -, -, -, -, -, -, -, -, -, -, -, f0, f1, f2, f3, -⟩ := idx_facts t
  show V m c main_arg1 (((cfg0.win 3).blk t).view.emb (ix4 0 0 k q)) = _
  rw [V_main_arg1]
  refine congrArg _ (funext fun a => Fin.ext ?_)
  match a with
  | ⟨0, _⟩ => show win0_3.index t (0 : Fin 4) * 1 + 1 * 0 = (i 0).val; omega
  | ⟨1, _⟩ => show win0_3.index t (1 : Fin 4) * 1 + 1 * 0 = (i 1).val; omega
  | ⟨2, _⟩ => show win0_3.index t (2 : Fin 4) * 128 + 1 * k.val = (i 2).val; omega
  | ⟨3, _⟩ => show win0_3.index t (3 : Fin 4) * 2048 + 1 * q.val = (i 3).val; omega

/-- The left operand's step at a point: the table's entry of the head's group and the point's row block. -/
theorem read_leftStep (c : Dev nD) (t : Fin cfg0.N) (g v : Fin 4)
    (hg : g.val = win0_4.index t (1 : Fin 4) / 4) (hv : v.val = win0_4.index t (2 : Fin 4)) :
    iblk m c 0 t (ix5 0 0 0 0 0)
      = (m ((c : Thread nD τ).loc main_arg2) : S1x4x1x4x1x1x1.Idx → EReal) (ivIdx g v) := by
  obtain ⟨f0, f1, f2, f3, f4, -⟩ := idx_facts t
  show (V m c main_v13 : S2x16x4x1x1.Idx → EReal) (((cfg0.win 0).blk t).view.emb (ix5 0 0 0 0 0)) = _
  rw [Cert.KernelIdeal.HostGlue.stepA_at]
  refine congrArg _ (funext fun a => Fin.ext ?_)
  match a with
  | ⟨0, _⟩ => rfl
  | ⟨1, _⟩ => show (win0_0.index t (1 : Fin 5) * 1 + 1 * 0) / 4 = g.val; omega
  | ⟨2, _⟩ => rfl
  | ⟨3, _⟩ => show win0_0.index t (2 : Fin 5) * 1 + 1 * 0 = v.val; omega
  | ⟨4, _⟩ => rfl
  | ⟨5, _⟩ => rfl
  | ⟨6, _⟩ => rfl

/-- The right operand's column of steps at a point: row `k` holds the table's entry of the head's group and of
    the block `k / 32`. -/
theorem read_rightStep (c : Dev nD) (t : Fin cfg0.N) (k : Fin 128) (g : Fin 4)
    (hg : g.val = win0_4.index t (1 : Fin 4) / 4) :
    iblk m c 1 t (ix4 0 0 k 0)
      = (m ((c : Thread nD τ).loc main_arg3) : S1x4x1x4x1x1x1.Idx → EReal) (ivIdx g (kBlk k)) := by
  obtain ⟨-, -, -, -, -, f0, f1, f2, f3, -⟩ := idx_facts t
  show (V m c main_v25 : S2x16x128x1.Idx → EReal) (((cfg0.win 1).blk t).view.emb (ix4 0 0 k 0)) = _
  rw [Cert.KernelIdeal.HostGlue.stepB_at]
  refine congrArg _ (funext fun a => Fin.ext ?_)
  match a with
  | ⟨0, _⟩ => rfl
  | ⟨1, _⟩ => show (win0_1.index t (1 : Fin 4) * 1 + 1 * 0) / 4 = g.val; omega
  | ⟨2, _⟩ => rfl
  | ⟨3, _⟩ => show (win0_1.index t (2 : Fin 4) * 128 + 1 * k.val) / 32 = k.val / 32; omega
  | ⟨4, _⟩ => rfl
  | ⟨5, _⟩ => rfl
  | ⟨6, _⟩ => rfl

/-! ## What a point writes back -/

/-- What point `t` writes back is block `t` of the specified result. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz4]
  simp only [View.ld_unit_zero (S := S1x1x1x1x1) hz5, View.ld_unit_zero (S := S1x1x128x1) hz4,
    View.ld_unit_zero (S := S1x1x512x128) hz4, View.ld_unit_zero (S := S1x1x128x2048) hz4]
  obtain ⟨-, -, -, -, -, -, -, -, -, -, -, -, -, -, -, -, -, b0, b1, b2, b3⟩ := idx_facts t
  funext y
  have y0 : (y 0).val < 1 := (y 0).isLt
  have y1 : (y 1).val < 1 := (y 1).isLt
  have y2 : (y 2).val < 512 := (y 2).isLt
  have y3 : (y 3).val < 2048 := (y 3).isLt
  have e0 : ((((cfg0.win 4).blk t).view.emb y) 0).val = win0_4.index t (0 : Fin 4) := by
    show win0_4.index t (0 : Fin 4) * 1 + 1 * (y 0).val = _; omega
  have e1 : ((((cfg0.win 4).blk t).view.emb y) 1).val = win0_4.index t (1 : Fin 4) := by
    show win0_4.index t (1 : Fin 4) * 1 + 1 * (y 1).val = _; omega
  have e2 : ((((cfg0.win 4).blk t).view.emb y) 2).val = win0_4.index t (2 : Fin 4) * 512 + (y 2).val := by
    show win0_4.index t (2 : Fin 4) * 512 + 1 * (y 2).val = _; omega
  have e3 : ((((cfg0.win 4).blk t).view.emb y) 3).val = (y 3).val := by
    show win0_4.index t (3 : Fin 4) * 2048 + 1 * (y 3).val = _; omega
  show k0_pay1 (k0_pay2 (iblk m c 0 t) (iblk m c 1 t) (iblk m c 2 t) (iblk m c 3 t)) y
      = Gat (m ((c : Thread nD τ).loc main_arg0)) (m ((c : Thread nD τ).loc main_arg1))
          (m ((c : Thread nD τ).loc main_arg2)) (m ((c : Thread nD τ).loc main_arg3))
          ((((cfg0.win 4).blk t).view.emb y) 0) ((((cfg0.win 4).blk t).view.emb y) 1)
          ((((cfg0.win 4).blk t).view.emb y) 2) ((((cfg0.win 4).blk t).view.emb y) 3)
  refine (Cert.KernelIdeal.Payload.store_at (iblk m c 0 t) (iblk m c 1 t) (iblk m c 2 t) (iblk m c 3 t) y
    ⟨(y 2).val, y2⟩ ⟨(y 3).val, y3⟩ rfl rfl).trans ?_
  unfold Gat
  refine Finset.sum_congr rfl fun k _ => ?_
  refine congrArg₂ (· * ·) (congrArg₂ fq ?_ ?_) (congrArg₂ fq ?_ ?_)
  · exact read_left m c t ⟨(y 2).val, y2⟩ k _ e0 e1 e2 rfl
  · refine read_leftStep m c t _ _ ?_ ?_
    · show ((((cfg0.win 4).blk t).view.emb y) 1).val / 4 = _; rw [e1]
    · show ((((cfg0.win 4).blk t).view.emb y) 2).val / 512 = _; rw [e2]; omega
  · exact read_right m c t k ⟨(y 3).val, y3⟩ _ e0 e1 rfl e3
  · refine read_rightStep m c t k _ ?_
    show ((((cfg0.win 4).blk t).view.emb y) 1).val / 4 = _; rw [e1]

/-! ## The blocks tile the result array -/

/-- An entry is in point `t`'s block iff each coordinate is in the block's range on its axis. -/
theorem mem_blk (t : Fin cfg0.N) (i : S2x16x2048x2048.Idx) :
    i ∈ ((cfg0.win 4).blk t).view.set ↔ ∀ a : Fin 4, win0_4.index t a * S1x1x512x2048.size a ≤ (i a).val
      ∧ (i a).val < win0_4.index t a * S1x1x512x2048.size a + S1x1x512x2048.size a := by
  show i ∈ ((View.whole main_v26).slice (win0_4.rect t)).set ↔ _
  rw [View.set_slice_whole, Rect.mem_set_unit]
  exact Iff.rfl

/-- Every entry of the result array is in some point's block: the point of its batch, its head and its row's block. -/
theorem cover (i : S2x16x2048x2048.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- So after the run the result array holds the specified function of the arguments. -/
theorem final (c : Dev nD) : (dats m 0 c).arrAt 4 cfg0.N = result m c :=
  (dats m 0 c).arrAt_eq_of_cover 4 (result m c) (fun t _ => flushed_eq m c t) cover

/-! ## The run, read -/

/-- Every weakly fair execution of the idealized kernel program ends with the result array at the specified function
    of the arguments and the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KernelValue

end
-- ==== Proof.lean ====
/-
  A blockwise fake-quantised batched matrix product, fused in one kernel, against the same computation written
  with array operations.

  Both programs quantise every entry of the two operands — divide by the entry's step, round to the nearest integer
  (ties to even), clamp into [-128, 127], multiply by the step again — and then multiply the operands over the
  contracted axis, batch by batch. The step of a left entry `A[b, h, r, k]` is the table entry of the head's group
  `h / 4` and the row's block `r / 512`; the step of a right entry `B[b, h, k, j]` is the table entry of `h / 4` and
  the contracted row's block `k / 32`. The reference finds an entry's step by viewing each operand as a rank-7 array
  against which the table broadcasts; the kernel's program gathers the table's rows by head and hands each grid
  point the one step of its 512 rows and the column of 128 steps of the contracted rows. Over the extended reals both
  results are, at every entry `(b, h, r, j)`, the same sum over `k` of the same two quantised factors: the kernel's
  narrowing of the factors to a shorter float format is the identity there, and its matrix product into a zero
  accumulator is the plain sum. No law beyond re-indexing joins the two sides, so finiteness of the inputs is not used.

  Spec: the common function. RefValue: the reference's result term is that function. HostGlue: the two arrays of
  steps the kernel's program builds before the grid, read at an index. Payload: one grid point's block from the four
  blocks it loads. KernelValue: the grid's 128 blocks tile the result array, which therefore holds the common function.
-/
import proofs.«176171_j68839735820689_1_alg».proof.Defs
import proofs.«176171_j68839735820689_1_alg».proof.Proof.Gen.Kernel
import proofs.«176171_j68839735820689_1_alg».proof.Proof.Gen.Kernel.Skeleton
import proofs.«176171_j68839735820689_1_alg».proof.Proof.Gen.Kernel.Launch
import proofs.«176171_j68839735820689_1_alg».proof.Proof.Gen.Kernel.Points
import proofs.«176171_j68839735820689_1_alg».proof.Proof.Gen.Kernel.Frame
import proofs.«176171_j68839735820689_1_alg».proof.Proof.Gen.KernelIdeal
import proofs.«176171_j68839735820689_1_alg».proof.Proof.Gen.KernelIdeal.Skeleton
import proofs.«176171_j68839735820689_1_alg».proof.Proof.Gen.KernelIdeal.Launch
import proofs.«176171_j68839735820689_1_alg».proof.Proof.Gen.KernelIdeal.Points
import proofs.«176171_j68839735820689_1_alg».proof.Proof.Gen.KernelIdeal.Frame
import proofs.«176171_j68839735820689_1_alg».proof.Proof.Gen.ReferenceIdeal
import proofs.«176171_j68839735820689_1_alg».proof.Proof.Gen.Pre_finite_inputs
import proofs.«176171_j68839735820689_1_alg».proof.Proof.Gen.KernelIdeal.Value
import proofs.«176171_j68839735820689_1_alg».proof.Proof.Gen.ReferenceIdeal.Run
import proofs.«176171_j68839735820689_1_alg».proof.Proof.Gen.ReferenceIdeal.Read
import proofs.«176171_j68839735820689_1_alg».proof.Proof.RefValue
import proofs.«176171_j68839735820689_1_alg».proof.Proof.KernelValue
import Idealize.ShloMosaic.Adequacy
import Idealize.ShloMosaic.Init

noncomputable section

namespace Cert.Proof

open Idealize.ShloMosaic Idealize.SL.Sem

/-- The word-level kernel program terminates without a fault and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference terminates with its arguments unchanged: its run, with what it says about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: no operation was rewritten. -/
theorem preserves : Cert.preserves_Kernel_KernelIdeal := trivial

/-- From memories that agree on the four arguments, the kernel's result array and the reference's are the same
    function of those arguments, entry by entry: the sum over the contracted position of the two quantised entries. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
